-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x4096 : Shape := ⟨3, ![8, 3, 4096]⟩
abbrev S_ : Shape := ⟨0, ![]⟩

class Facts : Prop where
  bcast_S_S8x3x4096 : S_.BroadcastsInDim S8x3x4096 (![] : Fin 0 → Fin S8x3x4096.rank)
  reducesTo_S8x3x4096_S_d0_1_2 : S8x3x4096.ReducesTo [0, 1, 2] S_
  h_S_ : 0 < S_.numel

variable [Facts]

def fn {F : FTy → Type} [FloatOps F] (main_arg0 : FVec F S8x3x4096 .f32) (main_arg1 : FVec F S8x3x4096 .f32) : IVec S_ 1 :=
  let main_v0 : FVec F S8x3x4096 .f32 := Host.absf main_arg0
  let main_cst : FVec F S_ .f32 := constant S_ .f32 0x7F800000#32
  let main_v1 : FVec F S8x3x4096 .f32 := broadcastInDim S8x3x4096 ![] bcast_S_S8x3x4096 main_cst
  let main_v2 : IVec S8x3x4096 1 := cmpf .olt main_v0 main_v1
  let main_c : IVec S_ 1 := constantI S_ 1 1#1
  let main_v3 : IVec S_ 1 := (fun x v => Host.reduce IntOp.andi x v reducesTo_S8x3x4096_S_d0_1_2 h_S_) main_v2 main_c
  let main_v4 : FVec F S8x3x4096 .f32 := Host.absf main_arg1
  let main_cst_0 : FVec F S_ .f32 := constant S_ .f32 0x7F800000#32
  let main_v5 : FVec F S8x3x4096 .f32 := broadcastInDim S8x3x4096 ![] bcast_S_S8x3x4096 main_cst_0
  let main_v6 : IVec S8x3x4096 1 := cmpf .olt main_v4 main_v5
  let main_c_1 : IVec S_ 1 := constantI S_ 1 1#1
  let main_v7 : IVec S_ 1 := (fun x v => Host.reduce IntOp.andi x v reducesTo_S8x3x4096_S_d0_1_2 h_S_) main_v6 main_c_1
  let main_v8 : IVec S_ 1 := andi main_v3 main_v7
  main_v8
-- ==== Kernel.lean ====
abbrev S8x3x4096 : Shape := ⟨3, ![8, 3, 4096]⟩
abbrev S8x4096x3 : Shape := ⟨3, ![8, 4096, 3]⟩
abbrev S8x4096x1 : Shape := ⟨3, ![8, 4096, 1]⟩
abbrev S1x512x3 : Shape := ⟨3, ![1, 512, 3]⟩
abbrev S1x4096x3 : Shape := ⟨3, ![1, 4096, 3]⟩
abbrev S1x512x1 : Shape := ⟨3, ![1, 512, 1]⟩
abbrev S1x4096x1 : Shape := ⟨3, ![1, 4096, 1]⟩
abbrev S1x512 : Shape := ⟨2, ![1, 512]⟩
abbrev S1x4096 : Shape := ⟨2, ![1, 4096]⟩
abbrev S1x1x4096 : Shape := ⟨3, ![1, 1, 4096]⟩
abbrev S1x512x4096 : Shape := ⟨3, ![1, 512, 4096]⟩
abbrev S8x4096 : Shape := ⟨2, ![8, 4096]⟩
abbrev S8x4096x2 : Shape := ⟨3, ![8, 4096, 2]⟩
abbrev S_ : Shape := ⟨0, ![]⟩
abbrev S8 : Shape := ⟨1, ![8]⟩

abbrev nBuf : Space → Nat
  | .hbm => 29
  | .vmem => 8
  | .smem => 0
  | _ => 0

abbrev bufTy : (tb : Table) → Fin (tcTables nBuf tb) → BufTy
  | .hbm, ⟨0, _⟩ => ⟨S8x3x4096, .f32⟩
  | .hbm, ⟨1, _⟩ => ⟨S8x3x4096, .f32⟩
  | .hbm, ⟨2, _⟩ => ⟨S8x4096x3, .f32⟩
  | .hbm, ⟨3, _⟩ => ⟨S8x4096x3, .f32⟩
  | .hbm, ⟨4, _⟩ => ⟨S8x4096x1, .f32⟩
  | .hbm, ⟨5, _⟩ => ⟨S8x4096x1, .f32⟩
  | .hbm, ⟨6, _⟩ => ⟨S8x4096, .f32⟩
  | .hbm, ⟨7, _⟩ => ⟨S8x4096, .f32⟩
  | .hbm, ⟨8, _⟩ => ⟨S8x4096x1, .f32⟩
  | .hbm, ⟨9, _⟩ => ⟨S8x4096x1, .f32⟩
  | .hbm, ⟨10, _⟩ => ⟨S8x4096x2, .f32⟩
  | .hbm, ⟨11, _⟩ => ⟨S_, .f32⟩
  | .hbm, ⟨12, _⟩ => ⟨S8x4096x2, .f32⟩
  | .hbm, ⟨13, _⟩ => ⟨S8x4096x2, .f32⟩
  | .hbm, ⟨14, _⟩ => ⟨S_, .f32⟩
  | .hbm, ⟨15, _⟩ => ⟨S8x4096x2, .f32⟩
  | .hbm, ⟨16, _⟩ => ⟨S8x4096x2, .f32⟩
  | .hbm, ⟨17, _⟩ => ⟨S8x4096x2, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x4096x3, .f32⟩
  | .local _ .vmem, ⟨3, _⟩ => ⟨S1x4096x3, .f32⟩
  | .local _ .vmem, ⟨4, _⟩ => ⟨S1x512x1, .f32⟩
  | .local _ .vmem, ⟨5, _⟩ => ⟨S1x512x1, .f32⟩
  | .local _ .vmem, ⟨6, _⟩ => ⟨S1x4096x1, .f32⟩
  | .local _ .vmem, ⟨7, _⟩ => ⟨S1x4096x1, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x3x4096_S8x4096x3_0_2_1 : S8x3x4096.Transposes [0, 2, 1] S8x4096x3
  inb_S1x4096x1_S1x4096x1_0_0_0 : ∀ a, (![0, 0, 0] : Fin 3 → Nat) a + S1x4096x1.size a ≤ S1x4096x1.size a
  h_S1x4096x1 : 0 < S1x4096x1.numel
  inb_S1x512x3_S1x512x3_0_0_0 : ∀ a, (![0, 0, 0] : Fin 3 → Nat) a + S1x512x3.size a ≤ S1x512x3.size a
  h_S1x512x3 : 0 < S1x512x3.numel
  shapeCasts_S1x512x3_S1x512x3 : S1x512x3.ShapeCasts S1x512x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S1x4096x3 : S1x4096x3.ShapeCasts S1x4096x3
  reduces_S1x512x3_S1x512 : S1x512x3.Reduces [2] S1x512
  shapeCasts_S1x512_S1x512x1 : S1x512.ShapeCasts S1x512x1
  reduces_S1x4096x3_S1x4096 : S1x4096x3.Reduces [2] S1x4096
  shapeCasts_S1x4096_S1x4096x1 : S1x4096.ShapeCasts S1x4096x1
  transposes_S1x4096x1_p0_2_1_S1x1x4096 : S1x4096x1.Transposes [0, 2, 1] S1x1x4096
  broadcasts_S1x512x1_S1x512x4096 : S1x512x1.Broadcasts S1x512x4096
  broadcasts_S1x1x4096_S1x512x4096 : S1x1x4096.Broadcasts S1x512x4096
  reduces_S1x512x4096_S1x512 : S1x512x4096.Reduces [2] S1x512
  inb_S1x512x1_S1x512x1_0_0_0 : ∀ a, (![0, 0, 0] : Fin 3 → Nat) a + S1x512x1.size a ≤ S1x512x1.size a
  h_S1x512x1 : 0 < S1x512x1.numel
  reduces_S1x512x4096_S1x4096 : S1x512x4096.Reduces [1] S1x4096
  shapeCasts_S1x4096_S1x1x4096 : S1x4096.ShapeCasts S1x1x4096
  transposes_S1x1x4096_p0_2_1_S1x4096x1 : S1x1x4096.Transposes [0, 2, 1] S1x4096x1
  shapeCasts_S1x4096x1_S1x4096x1 : S1x4096x1.ShapeCasts S1x4096x1
  shapeCasts_S8x4096x1_S8x4096 : S8x4096x1.ShapeCasts S8x4096
  bcast_S8x4096_S8x4096x1_0_1 : S8x4096.BroadcastsInDim S8x4096x1 (![0, 1] : Fin 2 → Fin S8x4096x1.rank)
  concatenates_S8x4096x1_S8x4096x1_S8x4096x2_d2 : Shape.Concatenates [S8x4096x1, S8x4096x1] S8x4096x2 2
  bcast_S_S8x4096x2 : S_.BroadcastsInDim S8x4096x2 (![] : Fin 0 → Fin S8x4096x2.rank)
  reducesTo_S8x4096x2_S8x4096_d2 : S8x4096x2.ReducesTo [2] S8x4096
  h_S_ : 0 < S_.numel
  reducesTo_S8x4096_S8_d1 : S8x4096.ReducesTo [1] S8
  bcast_S_S8 : S_.BroadcastsInDim S8 (![] : Fin 0 → Fin S8.rank)
  reducesTo_S8_S_d0 : S8.ReducesTo [0] S_
  dot_S1x512x3_S1x4096x3_S1x512x4096_2_2_1_1_0_0_wf : DotDims.WF S1x512x3 S1x4096x3 S1x512x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S8x4096x3.size a
  hwx0_1 : ∀ i : grid0.Coords, EltTy.bits .f32 = 32 ∨ (Rect.block (s := S8x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x4096x1.size a
  hwx0_2 : ∀ i : grid0.Coords, EltTy.bits .f32 = 32 ∨ (Rect.block (s := S8x4096x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S8x4096x1.size a
  hwx0_3 : ∀ i : grid0.Coords, EltTy.bits .f32 = 32 ∨ (Rect.block (s := S8x4096x1) S1x4096x1.size (cc0_transform_3 i) (hinb0_3 i)).WholeWords (EltTy.packing .f32)

variable [Facts₀]

def dot_S1x512x3_S1x4096x3_S1x512x4096_2_2_1_1_0_0 : DotDims S1x512x3 S1x4096x3 S1x512x4096 where
  lhsContracting := [2]
  rhsContracting := [2]
  lhsNonContracting := [1]
  rhsNonContracting := [1]
  lhsBatch := [0]
  rhsBatch := [0]
  wf := dot_S1x512x3_S1x4096x3_S1x512x4096_2_2_1_1_0_0_wf

abbrev win0_0 : Pipeline.Window sig grid0 :=
  Pipeline.Window.ofSpec (Memref.whole main_v0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x3x4096 : Shape := ⟨3, ![8, 3, 4096]⟩
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8x4096x2 : Shape := ⟨3, ![8, 4096, 2]⟩
abbrev S8 : Shape := ⟨1, ![8]⟩

abbrev nBuf : Space → Nat
  | .hbm => 45
  | .vmem => 0
  | .smem => 0
  | _ => 0

abbrev bufTy : (tb : Table) → Fin (tcTables nBuf tb) → BufTy
  | .hbm, ⟨0, _⟩ => ⟨S8x3x4096, .f32⟩
  | .hbm, ⟨1, _⟩ => ⟨S8x3x4096, .f32⟩
  | .hbm, ⟨2, _⟩ => ⟨S8x4096x3, .f32⟩
  | .hbm, ⟨3, _⟩ => ⟨S8x4096x3, .f32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x3, .f32⟩
  | .hbm, ⟨8, _⟩ => ⟨S_, .f32⟩
  | .hbm, ⟨9, _⟩ => ⟨S8x4096, .f32⟩
  | .hbm, ⟨10, _⟩ => ⟨S8x4096x4096, .f32⟩
  | .hbm, ⟨11, _⟩ => ⟨S8x4096x1, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x1, .f32⟩
  | .hbm, ⟨26, _⟩ => ⟨S8x4096x2, .f32⟩
  | .hbm, ⟨27, _⟩ => ⟨S_, .f32⟩
  | .hbm, ⟨28, _⟩ => ⟨S8x4096x2, .f32⟩
  | .hbm, ⟨29, _⟩ => ⟨S8x4096x2, .f32⟩
  | .hbm, ⟨30, _⟩ => ⟨S_, .f32⟩
  | .hbm, ⟨31, _⟩ => ⟨S8x4096x2, .f32⟩
  | .hbm, ⟨32, _⟩ => ⟨S8x4096x2, .f32⟩
  | .hbm, ⟨33, _⟩ => ⟨S8x4096x2, .f32⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  transposes_S8x3x4096_S8x4096x3_0_2_1 : S8x3x4096.Transposes [0, 2, 1] S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096x4096_S8x4096_d2 : S8x4096x4096.ReducesTo [2] S8x4096
  concatenates_S8x4096x1_S8x4096x1_S8x4096x2_d2 : Shape.Concatenates [S8x4096x1, S8x4096x1] S8x4096x2 2
  bcast_S_S8x4096x2 : S_.BroadcastsInDim S8x4096x2 (![] : Fin 0 → Fin S8x4096x2.rank)
  reducesTo_S8x4096x2_S8x4096_d2 : S8x4096x2.ReducesTo [2] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Pieces.lean ====
/-
  What each case of the body leaves in the two outputs' staging buffers, as the body's own arithmetic.

  The body has two cases. At the first tile of a batch it resets output 3 (the minimum for each target point)
  to `+∞` before folding the tile in; at the other tiles it folds the tile into what the tile before left.
  Output 2 (the minimum for each source point of the tile) is stored whole in both cases. Each staging buffer
  ends holding its covering stores read back: one store for output 2; for output 3 one store at a later tile,
  and at the first tile the update over the reset, the update's own load reading the reset value back.
-/
import proofs.«180050_j25039659336371_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0, 0] : Fin 3 → Nat) = fun _ => 0 := funext fun a => by fin_cases a <;> rfl

/-- First tile of a batch, output 2: the row minima of the tile's distances. -/
theorem out_A_2 (c : Dev nD) (i : grid0.Coords) (a2 : Memref sig .tc .vmem S1x512x3 .f32) (h2 : a2.IsWhole)
    (a3 : Memref sig .tc .vmem S1x4096x3 .f32) (h3 : a3.IsWhole) (a4 : Memref sig .tc .vmem S1x512x1 .f32) (h4 : a4.IsWhole)
    (a5 : Memref sig .tc .vmem S1x4096x1 .f32) (h5 : a5.IsWhole) (hc : cond0_0 i)
    (x0 : Vec F S1x512x3 .f32) (x1 : Vec F S1x4096x3 .f32) :
    out0_A_2 c i a2 h2 a3 h3 a4 h4 a5 h5 hc x0 x1 = k0_pay3 x0 x1 := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S1x512x3) hz,
    View.ld_unit_zero (S := S1x4096x3) hz]

/-- First tile of a batch, output 3: the tile's column minima folded into the reset value `+∞`. -/
theorem out_A_3 (c : Dev nD) (i : grid0.Coords) (a2 : Memref sig .tc .vmem S1x512x3 .f32) (h2 : a2.IsWhole)
    (a3 : Memref sig .tc .vmem S1x4096x3 .f32) (h3 : a3.IsWhole) (a4 : Memref sig .tc .vmem S1x512x1 .f32) (h4 : a4.IsWhole)
    (a5 : Memref sig .tc .vmem S1x4096x1 .f32) (h5 : a5.IsWhole) (hc : cond0_0 i)
    (x0 : Vec F S1x512x3 .f32) (x1 : Vec F S1x4096x3 .f32) :
    out0_A_3 c i a2 h2 a3 h3 a4 h4 a5 h5 hc x0 x1 = k0_pay4 x0 x1 (k0_pay1 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x4096x1) hz, View.readCov_unit_zero (S := S1x4096x1) _ hz]
  simp only [View.readAt_eq_ld, h2.read_unread, h3.read_unread, View.ld_unit_zero (S := S1x512x3) hz,
    View.ld_unit_zero (S := S1x4096x3) hz]

/-- A later tile, output 2: the row minima of the tile's distances. -/
theorem out_B_2 (c : Dev nD) (i : grid0.Coords) (a2 : Memref sig .tc .vmem S1x512x3 .f32) (h2 : a2.IsWhole)
    (a3 : Memref sig .tc .vmem S1x4096x3 .f32) (h3 : a3.IsWhole) (a4 : Memref sig .tc .vmem S1x512x1 .f32) (h4 : a4.IsWhole)
    (a5 : Memref sig .tc .vmem S1x4096x1 .f32) (h5 : a5.IsWhole) (hc : ¬cond0_0 i)
    (x0 : Vec F S1x512x3 .f32) (x1 : Vec F S1x4096x3 .f32) (xo : Vec F S1x4096x1 .f32) :
    out0_B_2 c i a2 h2 a3 h3 a4 h4 a5 h5 hc x0 x1 xo = k0_pay3 x0 x1 := by
  unfold out0_B_2
  rw [View.read_writes_eq_canon _ _ _ (cover0_B_2 c i a2 h2 a3 h3 a4 h4 a5 h5 hc x0 x1 xo)]
  unfold kernelRun0_B
  dsimp only
  sl_unfold_words
  rw [View.canon_unit_zero hz]
  simp only [View.readAt_eq_ld, h2.read_unread, h3.read_unread, View.ld_unit_zero (S := S1x512x3) hz,
    View.ld_unit_zero (S := S1x4096x3) hz]

/-- A later tile, output 3: the tile's column minima folded into what the tile before left, `xo`. -/
theorem out_B_3 (c : Dev nD) (i : grid0.Coords) (a2 : Memref sig .tc .vmem S1x512x3 .f32) (h2 : a2.IsWhole)
    (a3 : Memref sig .tc .vmem S1x4096x3 .f32) (h3 : a3.IsWhole) (a4 : Memref sig .tc .vmem S1x512x1 .f32) (h4 : a4.IsWhole)
    (a5 : Memref sig .tc .vmem S1x4096x1 .f32) (h5 : a5.IsWhole) (hc : ¬cond0_0 i)
    (x0 : Vec F S1x512x3 .f32) (x1 : Vec F S1x4096x3 .f32) (xo : Vec F S1x4096x1 .f32) :
    out0_B_3 c i a2 h2 a3 h3 a4 h4 a5 h5 hc x0 x1 xo = k0_pay4 x0 x1 xo := by
  unfold out0_B_3
  rw [View.read_writes_eq_canon _ _ _ (cover0_B_3 c i a2 h2 a3 h3 a4 h4 a5 h5 hc x0 x1 xo)]
  unfold kernelRun0_B
  dsimp only
  sl_unfold_words
  rw [View.canon_unit_zero hz]
  simp only [View.readAt_eq_ld, h2.read_unread, h3.read_unread, h5.read_unread, View.ld_unit_zero (S := S1x512x3) hz,
    View.ld_unit_zero (S := S1x4096x3) hz, View.ld_unit_zero (S := S1x4096x1) hz]

end Cert.KernelIdeal.Pieces

end
-- ==== Proof.Blocks.lean ====
/-
  The blocks the body loads, read at an index, and the arrays the region finds.

  The grid has 64 points: point `t` works on batch `t / 8` and on source tile `t % 8`. The source window's
  block at `t` is rows `512·(t % 8) … 512·(t % 8) + 511` of batch `t / 8` of the transposed source array; the
  target window's block is the whole of batch `t / 8` of the transposed target array. The two arrays the
  region finds are the transposes of the program's two arguments, written by the two host operations before it.
-/
import proofs.«180050_j25039659336371_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The grid has 64 points. -/
theorem N_eq : cfg0.N = 64 := N_0

/-- The printed index maps, decided once over the grid: windows 0 and 2 sit at block (t / 8, t % 8, 0), windows 1
    and 3 at block (t / 8, 0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The transposed source and target arrays as the region finds them, and the two input blocks at a point, each
    named at its literal type. -/
abbrev srcArr (c : Dev nD) : Vec F S8x4096x3 .f32 := V m c main_v0
abbrev tgtArr (c : Dev nD) : Vec F S8x4096x3 .f32 := V m c main_v1
abbrev srcBlk (c : Dev nD) (t : Fin cfg0.N) : Vec F S1x512x3 .f32 := iblk m c 0 t
abbrev tgtBlk (c : Dev nD) (t : Fin cfg0.N) : Vec F S1x4096x3 .f32 := iblk m c 1 t

/-- Batch and tile of a point, as literal `Fin`s. -/
abbrev batchOf (t : Fin cfg0.N) : Fin 8 := ⟨t.val / 8, by have := lt_of_lt_of_eq t.isLt N_eq; omega⟩

/-- The source block at point `t`: row `r` of the tile is row `512·(t % 8) + r` of batch `t / 8`. -/
theorem srcBlk_apply (c : Dev nD) (t : Fin cfg0.N) (r : Fin 512) (d : Fin 3) :
    srcBlk m c t (ix3 (0 : Fin 1) r d)
      = srcArr m c (ix3 (batchOf t) ⟨512 * (t.val % 8) + r.val, by have := r.isLt; omega⟩ d) := by
  obtain ⟨e0, e1, e2, -⟩ := idx_facts t
  have h0 : ((cfg0.win 0).blk t).view.emb (ix3 (0 : Fin 1) r d)
      = ix3 (batchOf t) ⟨512 * (t.val % 8) + r.val, by have := r.isLt; omega⟩ d := by
    funext a; apply Fin.ext
    match a with
    | ⟨0, _⟩ => show win0_0.index t (0 : Fin 3) * 1 + 1 * 0 = t.val / 8; omega
    | ⟨1, _⟩ => show win0_0.index t (1 : Fin 3) * 512 + 1 * r.val = 512 * (t.val % 8) + r.val; omega
    | ⟨2, _⟩ => show win0_0.index t (2 : Fin 3) * 3 + 1 * d.val = d.val; omega
  show V m c main_v0 (((cfg0.win 0).blk t).view.emb (ix3 (0 : Fin 1) r d)) = V m c main_v0 _
  rw [h0]

/-- The target block at point `t`: the whole of batch `t / 8`. -/
theorem tgtBlk_apply (c : Dev nD) (t : Fin cfg0.N) (k : Fin 4096) (d : Fin 3) :
    tgtBlk m c t (ix3 (0 : Fin 1) k d) = tgtArr m c (ix3 (batchOf t) k d) := by
  obtain ⟨-, -, -, e0, e1, e2, -⟩ := idx_facts t
  have h0 : ((cfg0.win 1).blk t).view.emb (ix3 (0 : Fin 1) k d) = ix3 (batchOf t) k d := by
    funext a; apply Fin.ext
    match a with
    | ⟨0, _⟩ => show win0_1.index t (0 : Fin 3) * 1 + 1 * 0 = t.val / 8; omega
    | ⟨1, _⟩ => show win0_1.index t (1 : Fin 3) * 4096 + 1 * k.val = k.val; omega
    | ⟨2, _⟩ => show win0_1.index t (2 : Fin 3) * 3 + 1 * d.val = d.val; omega
  show V m c main_v1 (((cfg0.win 1).blk t).view.emb (ix3 (0 : Fin 1) k d)) = V m c main_v1 _
  rw [h0]

/-- The arrays the region finds are the transposes of the two arguments as launched. -/
theorem srcArr_eq (c : Dev nD) :
    srcArr m c = transpose S8x4096x3 [0, 2, 1] (m ((c : Thread nD τ).loc main_arg0)) Facts₀.transposes_S8x3x4096_S8x4096x3_0_2_1 := by
  show StableHlo.after (List.flatten [hostOps0]) (fun b => m (c, b)) (Proc.devRef .tc main_v0) = _
  simp only [hostOps0, List.flatten_cons, List.flatten_nil, List.append_nil]
  after_results

theorem tgtArr_eq (c : Dev nD) :
    tgtArr m c = transpose S8x4096x3 [0, 2, 1] (m ((c : Thread nD τ).loc main_arg1)) Facts₀.transposes_S8x3x4096_S8x4096x3_0_2_1 := by
  show StableHlo.after (List.flatten [hostOps0]) (fun b => m (c, b)) (Proc.devRef .tc main_v1) = _
  simp only [hostOps0, List.flatten_cons, List.flatten_nil, List.append_nil]
  after_results

end Cert.KernelIdeal.Blocks

end
-- ==== Proof.LibMinFold.lean ====
/-
  Minima from `+∞` on the extended reals.

  A float minimum at the ideal values is `min` on `EReal`, a complete linear order, so a minimum taken over a
  finite family from the word of `+∞` is the family's infimum and is known by its universal property: `x` lies
  below it exactly when `x` lies below every member (`le_minOver`). Two such minima are then equal as soon as
  the same `x` lie below both (`eq_of_forall_le_iff`), whatever order or grouping produced them: this is how a
  minimum accumulated tile by tile is compared with one taken over the whole axis at once.

  Both reductions a program can print over ONE axis read, at a result index `j`, as that minimum over the axis's
  coordinates `k` of the source at `j` with `k` inserted: a kernel's `vector.multi_reduction <minimumf>`
  (`multiReduction_minimumf_single`) and the host's `stablehlo.reduce` with a `minimum` body
  (`hostReduce_minimumf_single`).
-/
import Idealize.ShloMosaic.PureOps.Ideal.Laws
import Idealize.ShloMosaic.PureOps.Reduce

noncomputable section

namespace Cert.MinFold

open Idealize.ShloMosaic

/-- The f32 word `0x7F800000` denotes `+∞`, the top of the extended reals. -/
theorem ofBits_inf_f32 : Ideal.ofBits .f32 0x7F800000#32 = (⊤ : EReal) := by
  simp [Ideal.ofBits, Ideal.ieee]

/-- The minimum of a finite family of extended reals, taken from the word of `+∞`. -/
def minOver {n : ℕ} (f : Fin n → EReal) : EReal :=
  (Finset.univ : Finset (Fin n)).fold min (Ideal.ofBits .f32 0x7F800000#32) f

/-- Its universal property: `x` is below the minimum exactly when it is below every member (the starting value
    `+∞` is above everything). -/
theorem le_minOver {n : ℕ} (f : Fin n → EReal) (x : EReal) : x ≤ minOver f ↔ ∀ k, x ≤ f k := by
  unfold minOver
  rw [Finset.le_fold_min, ofBits_inf_f32]
  exact ⟨fun h k => h.2 k (Finset.mem_univ k), fun h => ⟨le_top, fun k _ => h k⟩⟩

/-- The minimum is below each member. -/
theorem minOver_le {n : ℕ} (f : Fin n → EReal) (k : Fin n) : minOver f ≤ f k :=
  (le_minOver f _).1 le_rfl k

/-- Families that agree member by member have one minimum. -/
theorem minOver_congr {n : ℕ} {f g : Fin n → EReal} (h : ∀ k, f k = g k) : minOver f = minOver g :=
  congrArg minOver (funext h)

/-- A kernel's f32 `vector.multi_reduction <minimumf>` over ONE axis from the word of `+∞`, read at the ideal
    values at a result index `j`: the minimum over that axis's coordinates of the source at `j` with the
    coordinate inserted. -/
theorem multiReduction_minimumf_single {s t : Shape} {a : Fin s.rank} (src : FVec Ideal s .f32)
    (h : s.Reduces [a] t) (hφ : FKind.Formats .f32)
    (hacc : (0x7F800000#32 : BitVec FTy.f32.bits) = FKind.minimumf.neutral .f32 hφ) (j : t.Idx) :
    multiReduction .minimumf [a] t src 0x7F800000#32 h hφ hacc j = minOver fun k => src (h.lift j k) := by
  rw [multiReduction_minimumf_eq_fold]
  exact h.fold_filter_drop_single _ _ src j

/-- The host's `stablehlo.reduce` with a `minimum` body over ONE axis, its initial value the rank-zero constant
    of the word of `+∞`, read at the ideal values at `j`: the same minimum. `h'` is the program's stated
    `ReducesTo` fact; the `Reduces` witness `h` at the same shapes names the inserted index. -/
theorem hostReduce_minimumf_single {s t u : Shape} {a : Fin s.rank} (x : s.Idx → EReal)
    (h' : s.ReducesTo [a] t) (h : s.Reduces [a] t) (hu : 0 < u.numel) (j : t.Idx) :
    Host.reduce (FloatOps.minimumf (F := Ideal) (φ := .f32)) x (constant (F := Ideal) u .f32 0x7F800000#32) h' hu j
      = minOver fun k => x (h.lift j k) :=
  Host.reduce_eq_fold_single (FloatOps.minimumf (F := Ideal) (φ := .f32)) x _ h' h hu j

end Cert.MinFold

end
-- ==== Proof.Spec.lean ====
/-
  The specification: the two chamfer minima of a batch of point clouds, over the extended reals.

  A cloud array `A` holds, for each of 8 batches, 4096 points of 3 coordinates: `A (b, r, d)`. For a source
  cloud `A` and a target cloud `B` the squared distance of source point `r` to target point `c` of batch `b`
  is written as both programs compute it,
      pd A B b r c = (|A_r|² + |B_c|²) − 2 · ⟨A_r, B_c⟩,
  the squared norms and the inner product plain sums over the three coordinates. The two results are its minima
  from `+∞`: over the target points for each source point (`nearestTgt`) and over the source points for each
  target point (`nearestSrc`).

  The kernel meets the clouds tile by tile: a tile of 512 consecutive source points against all 4096 target
  points of one batch (`pdTile`, over the two blocks as the body loads them). It takes the first minimum per
  tile, and carries the second across the eight tiles of a batch as a running minimum. `running_step` is the
  law that lets the running minimum be known by its universal property alone: if `acc` is the infimum of the
  distances from the source points below row `lo`, then `min acc` (the tile's own minimum) is the infimum of
  those below `lo + 512`. No finiteness is needed: `min` on a linear order is all that is used.
-/
import proofs.«180050_j25039659336371_1_alg».proof.Proof.LibMinFold
import Idealize.ShloMosaic.Lib.ValueIdx

noncomputable section

namespace Cert.Chamfer

open Idealize.ShloMosaic Idealize.ShloMosaic.ValueIdx Cert.MinFold

/-- A cloud array: 8 batches of 4096 points of 3 coordinates. -/
abbrev Cloud : Shape := ⟨3, ![8, 4096, 3]⟩
/-- The block of 512 consecutive points of one batch, and the block of all 4096 points of one batch. -/
abbrev Tile : Shape := ⟨3, ![1, 512, 3]⟩
abbrev Whole : Shape := ⟨3, ![1, 4096, 3]⟩

/-- The word of `2`, kept as the word both programs print. -/
abbrev twoW : EReal := Ideal.ofBits .f32 0x40000000#32

/-- The squared norm of point `r` of batch `b`. -/
def sqn (A : Cloud.Idx → EReal) (b : Fin 8) (r : Fin 4096) : EReal :=
  ∑ d : Fin 3, A (ix3 b r d) * A (ix3 b r d)

/-- The inner product of source point `r` and target point `c` of batch `b`. -/
def inner (A B : Cloud.Idx → EReal) (b : Fin 8) (r c : Fin 4096) : EReal :=
  ∑ d : Fin 3, A (ix3 b r d) * B (ix3 b c d)

/-- The squared distance of source point `r` to target point `c`, as both programs compute it. -/
def pd (A B : Cloud.Idx → EReal) (b : Fin 8) (r c : Fin 4096) : EReal :=
  (sqn A b r + sqn B b c) - twoW * inner A B b r c

/-- For source point `r`: the least squared distance to a target point. -/
def nearestTgt (A B : Cloud.Idx → EReal) (b : Fin 8) (r : Fin 4096) : EReal := minOver fun c => pd A B b r c

/-- For target point `c`: the least squared distance from a source point. -/
def nearestSrc (A B : Cloud.Idx → EReal) (b : Fin 8) (c : Fin 4096) : EReal := minOver fun r => pd A B b r c

/-- The same squared distance over the two blocks one grid point loads: source point `r` of the tile against
    target point `c` of the batch. -/
def pdTile (x0 : Tile.Idx → EReal) (x1 : Whole.Idx → EReal) (r : Fin 512) (c : Fin 4096) : EReal :=
  (∑ d : Fin 3, x0 (ix3 (0 : Fin 1) r d) * x0 (ix3 (0 : Fin 1) r d)
      + ∑ d : Fin 3, x1 (ix3 (0 : Fin 1) c d) * x1 (ix3 (0 : Fin 1) c d))
    - twoW * ∑ d : Fin 3, x0 (ix3 (0 : Fin 1) r d) * x1 (ix3 (0 : Fin 1) c d)

/-- When the tile's block is rows `lo … lo + 511` of batch `b` of `A` and the other block is batch `b` of `B`,
    the tile's squared distance is the clouds'. -/
theorem pdTile_eq (A B : Cloud.Idx → EReal) (x0 : Tile.Idx → EReal) (x1 : Whole.Idx → EReal) (b : Fin 8) (lo : ℕ)
    (hlo : lo + 512 ≤ 4096)
    (h0 : ∀ (r : Fin 512) (d : Fin 3), x0 (ix3 (0 : Fin 1) r d) = A (ix3 b ⟨lo + r.val, by have := r.isLt; omega⟩ d))
    (h1 : ∀ (c : Fin 4096) (d : Fin 3), x1 (ix3 (0 : Fin 1) c d) = B (ix3 b c d))
    (r : Fin 512) (c : Fin 4096) :
    pdTile x0 x1 r c = pd A B b ⟨lo + r.val, by have := r.isLt; omega⟩ c := by
  unfold pdTile pd sqn inner
  simp only [h0, h1]

/-- THE RUNNING MINIMUM. If `acc` is the infimum of a family `f` over the rows below `lo`, then `min acc` of
    the minimum over the next 512 rows is the infimum over the rows below `lo + 512`. -/
theorem running_step (f : Fin 4096 → EReal) (g : Fin 512 → EReal) (lo : ℕ) (hlo : lo + 512 ≤ 4096)
    (hg : ∀ r : Fin 512, g r = f ⟨lo + r.val, by have := r.isLt; omega⟩) (acc : EReal)
    (hacc : ∀ x : EReal, x ≤ acc ↔ ∀ r : Fin 4096, r.val < lo → x ≤ f r) (x : EReal) :
    x ≤ min acc (minOver g) ↔ ∀ r : Fin 4096, r.val < lo + 512 → x ≤ f r := by
  rw [le_min_iff, hacc, le_minOver]
  constructor
  · rintro ⟨h1, h2⟩ r hr
    by_cases hlt : r.val < lo
    · exact h1 r hlt
    · have hk : r.val - lo < 512 := by omega
      have := h2 ⟨r.val - lo, hk⟩
      rw [hg] at this
      have e : (⟨lo + (r.val - lo), by omega⟩ : Fin 4096) = r := Fin.ext (by simp only; omega)
      rwa [e] at this
  · intro h
    refine ⟨fun r hr => h r (by omega), fun k => ?_⟩
    rw [hg]
    exact h _ (by have := k.isLt; simp only; omega)

/-- The start of a batch: from `+∞` nothing has been seen, and every `x` is below the accumulator. -/
theorem running_start (f : Fin 4096 → EReal) (x : EReal) :
    x ≤ Ideal.ofBits .f32 0x7F800000#32 ↔ ∀ r : Fin 4096, r.val < 0 → x ≤ f r := by
  rw [ofBits_inf_f32]
  exact ⟨fun _ r hr => absurd hr (Nat.not_lt_zero _), fun _ => le_top⟩

/-- The end of a batch: an accumulator that is the infimum over all 4096 rows is the minimum over them. -/
theorem running_end (f : Fin 4096 → EReal) (acc : EReal)
    (hacc : ∀ x : EReal, x ≤ acc ↔ ∀ r : Fin 4096, r.val < 4096 → x ≤ f r) : acc = minOver f :=
  eq_of_forall_le_iff fun x => by
    rw [hacc, le_minOver]
    exact ⟨fun h r => h r r.isLt, fun h r _ => h r⟩

end Cert.Chamfer

end
-- ==== Proof.Payload.lean ====
/-
  The body's arithmetic read at an index, over the extended reals.

  One grid point holds a tile of 512 source points `s` and all 4096 target points `t` of one batch, three coordinates
  each. The body forms the table of squared distances
      P (r, c) = (∑_d s(r,d)² + ∑_d t(c,d)²) − 2 · ∑_d s(r,d) · t(c,d),
  each squared norm a sum over the three coordinates that is then spread along the other point's axis (the source
  norms as a column repeated along the row, the target norms as a column turned into a row and repeated down the
  rows), the inner products one matrix product contracting the coordinate axis. It then takes the minimum of `P` along
  the target axis, one value per source point, and the minimum along the source axis, folded by `min` into a carried
  value per target point; the carried value starts from `+∞`.

  Each of the four values is read here at one index: the operations that act element by element read through
  directly; an operation that moves elements (a change of shape between `[1, a]` and `[1, a, 1]` or `[1, 1, c]`, a
  swap of the last two axes, a repetition along an axis of extent one) reads its operand at the index with the same
  coordinates; a sum or a minimum along one axis reads as the `Fin`-indexed sum or minimum over that axis's
  coordinate; the matrix product reads as the sum over the contracted coordinate.
-/
import proofs.«180050_j25039659336371_1_alg».proof.Proof.Spec
import proofs.«180050_j25039659336371_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen Cert.Chamfer Cert.MinFold

/-- The carried minimum's starting value: the word of `+∞` at every target point. -/
theorem pay1_apply (i : S1x4096x1.Idx) : (k0_pay1 (F := Ideal)) i = Ideal.ofBits .f32 0x7F800000#32 := rfl

section Layout
variable {α : Type}

/-- A `[1, a]` array cast to `[1, a, 1]` reads, at `(0, i, 0)`, the operand at `(0, i)`: both sit at row-major
    position `i`. -/
theorem shapeCast_1a_1a1_apply {a : ℕ} (x : (⟨2, ![1, a]⟩ : Shape).Idx → α)
    (h : (⟨2, ![1, a]⟩ : Shape).ShapeCasts ⟨3, ![1, a, 1]⟩) (i : Fin a) :
    shapeCast ⟨3, ![1, a, 1]⟩ x h (ix3 (0 : Fin 1) i (0 : Fin 1)) = x (ix2 (0 : Fin 1) i) :=
  shapeCast_apply x h _ _ (by
    rw [Shape.rowMajor_val_three, Shape.rowMajor_val_two]
    show 0 * a + i.val = (0 * a + i.val) * 1 + 0
    omega)

/-- A `[1, a, 1]` array broadcast to `[1, a, c]` reads, at `(0, i, j)`, the operand's row `i`. -/
theorem broadcastTo_1a1_1ac_apply {a c : ℕ} (v : (⟨3, ![1, a, 1]⟩ : Shape).Idx → α)
    (h : (⟨3, ![1, a, 1]⟩ : Shape).Broadcasts ⟨3, ![1, a, c]⟩) (i : Fin a) (j : Fin c) :
    broadcastTo ⟨3, ![1, a, c]⟩ v h (ix3 (0 : Fin 1) i j) = v (ix3 (0 : Fin 1) i (0 : Fin 1)) := by
  refine broadcastTo_apply v h (ix3 (0 : Fin 1) i j) (ix3 (0 : Fin 1) i (0 : Fin 1)) fun ax => ?_
  match ax with
  | ⟨0, _⟩ => rfl
  | ⟨1, _⟩ =>
    show i.val = if a = 1 then 0 else i.val
    split
    · have := i.isLt; omega
    · rfl
  | ⟨2, _⟩ => rfl

/-- A `[1, 1, c]` array broadcast to `[1, a, c]` reads, at `(0, i, j)`, the operand's one row at `j`. -/
theorem broadcastTo_11c_1ac_apply {a c : ℕ} (v : (⟨3, ![1, 1, c]⟩ : Shape).Idx → α)
    (h : (⟨3, ![1, 1, c]⟩ : Shape).Broadcasts ⟨3, ![1, a, c]⟩) (i : Fin a) (j : Fin c) :
    broadcastTo ⟨3, ![1, a, c]⟩ v h (ix3 (0 : Fin 1) i j) = v (ix3 (0 : Fin 1) (0 : Fin 1) j) := by
  refine broadcastTo_apply v h (ix3 (0 : Fin 1) i j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Layout

/-- The sum over the three coordinates of a `[1, a, 3]` array, read at `(0, i)`. -/
theorem coordSum_apply {a : ℕ} (src : FVec Ideal ⟨3, ![1, a, 3]⟩ .f32)
    (h : (⟨3, ![1, a, 3]⟩ : Shape).Reduces [2] ⟨2, ![1, a]⟩) (hφ : FKind.Formats .f32)
    (hacc : (0x00000000#32 : BitVec FTy.f32.bits) = FKind.add.neutral .f32 hφ) (i : Fin a) :
    multiReduction .add [2] ⟨2, ![1, a]⟩ src 0x00000000#32 h hφ hacc (ix2 (0 : Fin 1) i)
      = ∑ d : Fin 3, src (ix3 (0 : Fin 1) i d) := by
  refine (Ideal.multiReduction_add_single src 0x00000000#32 h hφ hacc (ix2 (0 : Fin 1) i)).trans ?_
  refine Finset.sum_congr rfl fun d _ => congrArg src (funext fun ax => Fin.ext ?_)
  match ax with
  | ⟨0, _⟩ => rfl
  | ⟨1, _⟩ => rfl
  | ⟨2, _⟩ => rfl

/-! ## The matrix product

The body's matrix product contracts the coordinate axis (axis 2) of both operands and keeps axis 0 as a batch axis:
at `(0, r, c)` it reads the left operand at `(0, r, d)` and the right at `(0, c, d)`, summed over `d`. The six
facts below say where each operand index sits, axis by axis. -/

theorem lhs_mm_0 (i : S1x512x4096.Idx) (q : dot_S1x512x3_S1x4096x3_S1x512x4096_2_2_1_1_0_0.contr.Idx) :
    (dot_S1x512x3_S1x4096x3_S1x512x4096_2_2_1_1_0_0.lhsIdx i q 0).val = (i 0).val := by
  unfold DotDims.lhsIdx
  rw [dif_pos (show (0 : Fin S1x512x3.rank) ∈ dot_S1x512x3_S1x4096x3_S1x512x4096_2_2_1_1_0_0.lhsBatch by decide)]
  rfl
theorem lhs_mm_1 (i : S1x512x4096.Idx) (q : dot_S1x512x3_S1x4096x3_S1x512x4096_2_2_1_1_0_0.contr.Idx) :
    (dot_S1x512x3_S1x4096x3_S1x512x4096_2_2_1_1_0_0.lhsIdx i q 1).val = (i 1).val := by
  unfold DotDims.lhsIdx
  rw [dif_neg (show ¬(1 : Fin S1x512x3.rank) ∈ dot_S1x512x3_S1x4096x3_S1x512x4096_2_2_1_1_0_0.lhsBatch by decide), dif_pos (show (1 : Fin S1x512x3.rank) ∈ dot_S1x512x3_S1x4096x3_S1x512x4096_2_2_1_1_0_0.lhsNonContracting by decide)]
  rfl
theorem lhs_mm_2 (i : S1x512x4096.Idx) (q : dot_S1x512x3_S1x4096x3_S1x512x4096_2_2_1_1_0_0.contr.Idx) :
    (dot_S1x512x3_S1x4096x3_S1x512x4096_2_2_1_1_0_0.lhsIdx i q 2).val = (q ⟨0, by decide⟩).val :=
  dot_S1x512x3_S1x4096x3_S1x512x4096_2_2_1_1_0_0.lhsIdx_val_of_single rfl i q
theorem rhs_mm_0 (i : S1x512x4096.Idx) (q : dot_S1x512x3_S1x4096x3_S1x512x4096_2_2_1_1_0_0.contr.Idx) :
    (dot_S1x512x3_S1x4096x3_S1x512x4096_2_2_1_1_0_0.rhsIdx i q 0).val = (i 0).val := by
  unfold DotDims.rhsIdx
  rw [dif_pos (show (0 : Fin S1x4096x3.rank) ∈ dot_S1x512x3_S1x4096x3_S1x512x4096_2_2_1_1_0_0.rhsBatch by decide)]
  rfl
theorem rhs_mm_1 (i : S1x512x4096.Idx) (q : dot_S1x512x3_S1x4096x3_S1x512x4096_2_2_1_1_0_0.contr.Idx) :
    (dot_S1x512x3_S1x4096x3_S1x512x4096_2_2_1_1_0_0.rhsIdx i q 1).val = (i 2).val := by
  unfold DotDims.rhsIdx
  rw [dif_neg (show ¬(1 : Fin S1x4096x3.rank) ∈ dot_S1x512x3_S1x4096x3_S1x512x4096_2_2_1_1_0_0.rhsBatch by decide), dif_pos (show (1 : Fin S1x4096x3.rank) ∈ dot_S1x512x3_S1x4096x3_S1x512x4096_2_2_1_1_0_0.rhsNonContracting by decide)]
  rfl
theorem rhs_mm_2 (i : S1x512x4096.Idx) (q : dot_S1x512x3_S1x4096x3_S1x512x4096_2_2_1_1_0_0.contr.Idx) :
    (dot_S1x512x3_S1x4096x3_S1x512x4096_2_2_1_1_0_0.rhsIdx i q 2).val = (q ⟨0, by decide⟩).val :=
  dot_S1x512x3_S1x4096x3_S1x512x4096_2_2_1_1_0_0.rhsIdx_val_of_single rfl i q

/-- The product into the zero accumulator, read at `(0, r, c)`: the inner product of source point `r` and target
    point `c`. -/
theorem matmul_ix3_apply (x0 : FVec Ideal S1x512x3 .f32) (x1 : FVec Ideal S1x4096x3 .f32) (r : Fin 512) (c : Fin 4096) :
    matmul dot_S1x512x3_S1x4096x3_S1x512x4096_2_2_1_1_0_0 none x0 x1 (constant (F := Ideal) S1x512x4096 .f32 0x00000000#32) (ix3 (0 : Fin 1) r c)
      = ∑ d : Fin 3, x0 (ix3 (0 : Fin 1) r d) * x1 (ix3 (0 : Fin 1) c d) := by
  simp only [matmul]
  rw [Ideal.matmul_constant_zero_apply, ← Equiv.sum_comp (contrEquiv1 dot_S1x512x3_S1x4096x3_S1x512x4096_2_2_1_1_0_0 3 rfl rfl).symm]
  refine Finset.sum_congr rfl fun k _ => ?_
  have hk := contrEquiv1_symm_val dot_S1x512x3_S1x4096x3_S1x512x4096_2_2_1_1_0_0 3 rfl rfl k
  have el : dot_S1x512x3_S1x4096x3_S1x512x4096_2_2_1_1_0_0.lhsIdx (ix3 (0 : Fin 1) r c) ((contrEquiv1 dot_S1x512x3_S1x4096x3_S1x512x4096_2_2_1_1_0_0 3 rfl rfl).symm k) = ix3 (0 : Fin 1) r k := funext fun a => Fin.ext (by
    match a with
    | ⟨0, _⟩ => exact lhs_mm_0 _ _
    | ⟨1, _⟩ => exact lhs_mm_1 _ _
    | ⟨2, _⟩ => exact (lhs_mm_2 _ _).trans hk)
  have er : dot_S1x512x3_S1x4096x3_S1x512x4096_2_2_1_1_0_0.rhsIdx (ix3 (0 : Fin 1) r c) ((contrEquiv1 dot_S1x512x3_S1x4096x3_S1x512x4096_2_2_1_1_0_0 3 rfl rfl).symm k) = ix3 (0 : Fin 1) c k := funext fun a => Fin.ext (by
    match a with
    | ⟨0, _⟩ => exact rhs_mm_0 _ _
    | ⟨1, _⟩ => exact rhs_mm_1 _ _
    | ⟨2, _⟩ => exact (rhs_mm_2 _ _).trans hk)
  rw [el, er]

/-! ## The four payloads -/

/-- The tile's squared distances: the two squared norms, each a sum over the three coordinates spread along the
    other point's axis, minus twice the inner product. -/
theorem pay2_apply (x0 : Vec Ideal S1x512x3 .f32) (x1 : Vec Ideal S1x4096x3 .f32) (r : Fin 512) (c : Fin 4096) :
    k0_pay2 (F := Ideal) x0 x1 (ix3 (0 : Fin 1) r c) = pdTile x0 x1 r c := by
  unfold k0_pay2 pdTile
  simp only [shapeCast_self, subf_apply, addf_apply, mulf_apply, broadcast_apply]
  refine congrArg₂ (· - ·) (congrArg₂ (· + ·) ?_ ?_) (congrArg₂ (· * ·) rfl ?_)
  · -- |s_r|²: row r of the column of squared norms
    exact (broadcastTo_1a1_1ac_apply _ _ r c).trans
      ((shapeCast_1a_1a1_apply _ _ r).trans (coordSum_apply (mulf x0 x0) _ _ _ r))
  · -- |t_c|²: the column of squared norms laid along the row, read at c
    exact (broadcastTo_11c_1ac_apply _ _ r c).trans
      ((transpose_ix3_021_apply _ _ (0 : Fin 1) (0 : Fin 1) c).trans
        ((shapeCast_1a_1a1_apply _ _ c).trans (coordSum_apply (mulf x1 x1) _ _ _ c)))
  · -- ⟨s_r, t_c⟩
    exact matmul_ix3_apply x0 x1 r c

/-- The minimum along the target axis: for source point `r` of the tile, the least squared distance to a target
    point. -/
theorem pay3_apply (x0 : Vec Ideal S1x512x3 .f32) (x1 : Vec Ideal S1x4096x3 .f32) (r : Fin 512) :
    k0_pay3 (F := Ideal) x0 x1 (ix3 (0 : Fin 1) r (0 : Fin 1)) = minOver fun c => pdTile x0 x1 r c := by
  unfold k0_pay3
  refine (shapeCast_1a_1a1_apply _ _ r).trans ?_
  refine (multiReduction_minimumf_single (k0_pay2 (F := Ideal) x0 x1) reduces_S1x512x4096_S1x512 (.inl rfl) rfl
    (ix2 (0 : Fin 1) r)).trans ?_
  refine minOver_congr (n := 4096) fun c => ?_
  refine Eq.trans (congrArg (k0_pay2 (F := Ideal) x0 x1) (funext fun ax => Fin.ext ?_)) (pay2_apply x0 x1 r c)
  match ax with
  | ⟨0, _⟩ => rfl
  | ⟨1, _⟩ => rfl
  | ⟨2, _⟩ => rfl

/-- The carried minimum along the source axis: the accumulator at target point `c` against the tile's least squared
    distance to `c`. -/
theorem pay4_apply (x0 : Vec Ideal S1x512x3 .f32) (x1 : Vec Ideal S1x4096x3 .f32) (xo : Vec Ideal S1x4096x1 .f32) (c : Fin 4096) :
    k0_pay4 (F := Ideal) x0 x1 xo (ix3 (0 : Fin 1) c (0 : Fin 1))
      = min (xo (ix3 (0 : Fin 1) c (0 : Fin 1))) (minOver fun r => pdTile x0 x1 r c) := by
  unfold k0_pay4
  simp only [shapeCast_self, minimumf_apply]
  refine congrArg (min _) ?_
  refine (transpose_ix3_021_apply _ _ (0 : Fin 1) c (0 : Fin 1)).trans ?_
  refine (shapeCast_ab_1ab_apply _ _ (0 : Fin 1) (0 : Fin 1) c).trans ?_
  refine (multiReduction_minimumf_single (k0_pay2 (F := Ideal) x0 x1) reduces_S1x512x4096_S1x4096 (.inl rfl) rfl
    (ix2 (0 : Fin 1) c)).trans ?_
  refine minOver_congr (n := 512) fun r => ?_
  refine Eq.trans (congrArg (k0_pay2 (F := Ideal) x0 x1) (funext fun ax => Fin.ext ?_)) (pay2_apply x0 x1 r c)
  match ax with
  | ⟨0, _⟩ => rfl
  | ⟨1, _⟩ => rfl
  | ⟨2, _⟩ => rfl

end Cert.KernelIdeal.Payload

end
-- ==== Proof.Carried.lean ====
/-
  What the two outputs' staging buffers hold after each grid point, at the ideal values.

  Output 2 after point `t` is the row minima of the point's tile. Output 3 is carried across the eight tiles of
  a batch: after point `t` (batch `t / 8`, tile `t % 8`) its entry for target point `col` is the infimum of
  the squared distances from the source points of rows below `512·(t % 8) + 512`. This is stated by the
  universal property of the infimum and proved by induction over the points: the first tile of a batch folds
  into the reset value `+∞`, below which nothing has been seen; a later tile folds into what the tile before
  left, and the running-minimum law extends the rows seen by 512.
-/
import proofs.«180050_j25039659336371_1_alg».proof.Proof.Pieces
import proofs.«180050_j25039659336371_1_alg».proof.Proof.Blocks
import proofs.«180050_j25039659336371_1_alg».proof.Proof.Payload
import proofs.«180050_j25039659336371_1_alg».proof.Proof.Spec

noncomputable section

namespace Cert.KernelIdeal.Carried

open Idealize.ShloMosaic Idealize.ShloMosaic.TcCoe Idealize.SL.Sem Idealize.ShloMosaic.ValueIdx
open Cert.KernelIdeal Cert.KernelIdeal.Gen Cert.KernelIdeal.Blocks Cert.KernelIdeal.Pieces Cert.KernelIdeal.Payload
open Cert.Chamfer Cert.MinFold

variable (m : (ℓ : Loc nD τ sig) → Buf (Elt Ideal) ℓ)

/-- The two clouds: the transposed source and target arrays the region finds, as arrays of extended reals. -/
abbrev srcCloud (c : Dev nD) : Cloud.Idx → EReal := srcArr m c
abbrev tgtCloud (c : Dev nD) : Cloud.Idx → EReal := tgtArr m c

/-- The distances the body forms at point `t` are the clouds' distances from the tile's rows. -/
theorem tile_pd (c : Dev nD) (t : Fin cfg0.N) (r : Fin 512) (k : Fin 4096) :
    pdTile (srcBlk m c t) (tgtBlk m c t) r k
      = pd (srcCloud m c) (tgtCloud m c) (batchOf t) ⟨512 * (t.val % 8) + r.val, by have := r.isLt; omega⟩ k :=
  pdTile_eq (srcCloud m c) (tgtCloud m c) (srcBlk m c t) (tgtBlk m c t) (batchOf t) (512 * (t.val % 8)) (by omega)
    (fun r d => srcBlk_apply m c t r d) (fun k d => tgtBlk_apply m c t k d) r k

/-- Output 2 after point `t`: the row minima of the tile, in either case of the body. -/
theorem rowMin_at (c : Dev nD) (t : Fin cfg0.N) :
    (outsAt0 m c t.val t.isLt).1 = k0_pay3 (F := Ideal) (srcBlk m c t) (tgtBlk m c t) := by
  by_cases h0 : t.val % 8 = 0
  · rw [outsAt0_A m c t h0]
    dsimp only
    exact out_A_2 (F := Ideal) c (grid0.coords t) (ms0_0 t) (hs0_0 t) (ms0_1 t) (hs0_1 t) (ms0_2 t) (hs0_2 t) (ms0_3 t) (hs0_3 t)
      ((hcond0_0 t).mpr h0) (iblk m c 0 t) (iblk m c 1 t)
  · rw [outsAt0_B m c t h0]
    dsimp only
    exact out_B_2 (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t) (iblk m c 1 t)
      (outsAt0 m c (t.val - 1) (Nat.lt_of_le_of_lt (Nat.sub_le _ _) t.isLt)).2

/-- ONE TILE FOLDED IN. If the accumulator `xo` holds, at target point `col`, the infimum of the distances from
    the rows below `lo`, and the two blocks are rows `lo … lo + 511` of batch `b` of `A` and batch `b` of
    `B`, then the body's update holds the infimum over the rows below `lo + 512`. -/
theorem fold_tile (A B : Cloud.Idx → EReal) (x0 : Vec Ideal S1x512x3 .f32) (x1 : Vec Ideal S1x4096x3 .f32) (b : Fin 8)
    (lo : ℕ) (hlo : lo + 512 ≤ 4096)
    (h0 : ∀ (r : Fin 512) (d : Fin 3), x0 (ix3 (0 : Fin 1) r d) = A (ix3 b ⟨lo + r.val, by have := r.isLt; omega⟩ d))
    (h1 : ∀ (k : Fin 4096) (d : Fin 3), x1 (ix3 (0 : Fin 1) k d) = B (ix3 b k d))
    (xo : Vec Ideal S1x4096x1 .f32) (col : Fin 4096)
    (hxo : ∀ x : EReal, x ≤ xo (ix3 (0 : Fin 1) col (0 : Fin 1)) ↔ ∀ r : Fin 4096, r.val < lo → x ≤ pd A B b r col)
    (x : EReal) :
    x ≤ k0_pay4 (F := Ideal) x0 x1 xo (ix3 (0 : Fin 1) col (0 : Fin 1))
      ↔ ∀ r : Fin 4096, r.val < lo + 512 → x ≤ pd A B b r col := by
  rw [pay4_apply]
  exact running_step (fun r => pd A B b r col) (fun r => pdTile x0 x1 r col) lo hlo
    (fun r => pdTile_eq A B x0 x1 b lo hlo h0 h1 r col) _ hxo x

/-- Output 3 after point `n`, at target point `col`: the infimum of the distances from the source points of
    batch `n / 8` in the rows below `512·(n % 8) + 512`. -/
theorem colMin_at (c : Dev nD) : ∀ (n : ℕ) (hn : n < cfg0.N) (col : Fin 4096) (x : EReal),
    x ≤ (outsAt0 m c n hn).2 (ix3 (0 : Fin 1) col (0 : Fin 1))
      ↔ ∀ r : Fin 4096, r.val < 512 * (n % 8) + 512 →
          x ≤ pd (srcCloud m c) (tgtCloud m c) (batchOf ⟨n, hn⟩) r col := by
  intro n
  induction n using Nat.strong_induction_on with
  | _ n ih =>
    intro hn col x
    have hN : n < 64 := lt_of_lt_of_eq hn N_eq
    by_cases h0 : n % 8 = 0
    · have hp := congrFun (out_A_3 (F := Ideal) c (grid0.coords ⟨n, hn⟩) (ms0_0 ⟨n, hn⟩) (hs0_0 ⟨n, hn⟩) (ms0_1 ⟨n, hn⟩)
        (hs0_1 ⟨n, hn⟩) (ms0_2 ⟨n, hn⟩) (hs0_2 ⟨n, hn⟩) (ms0_3 ⟨n, hn⟩) (hs0_3 ⟨n, hn⟩) ((hcond0_0 ⟨n, hn⟩).mpr h0)
        (iblk m c 0 ⟨n, hn⟩) (iblk m c 1 ⟨n, hn⟩)) (ix3 (0 : Fin 1) col (0 : Fin 1))
      rw [outsAt0_A m c ⟨n, hn⟩ h0]
      dsimp only
      rw [hp]
      refine fold_tile (srcCloud m c) (tgtCloud m c) (srcBlk m c ⟨n, hn⟩) (tgtBlk m c ⟨n, hn⟩) (batchOf ⟨n, hn⟩)
        (512 * (n % 8)) (by omega) (fun r d => srcBlk_apply m c ⟨n, hn⟩ r d) (fun k d => tgtBlk_apply m c ⟨n, hn⟩ k d)
        (k0_pay1 (F := Ideal)) col (fun y => ?_) x
      rw [pay1_apply, ofBits_inf_f32]
      exact ⟨fun _ r hr => absurd hr (by omega), fun _ => le_top⟩
    · have hn' : n - 1 < cfg0.N := Nat.lt_of_le_of_lt (Nat.sub_le _ _) hn
      have hp := congrFun (out_B_3 (F := Ideal) c (grid0.coords ⟨n, hn⟩) (ms0_0 ⟨n, hn⟩) (hs0_0 ⟨n, hn⟩) (ms0_1 ⟨n, hn⟩)
        (hs0_1 ⟨n, hn⟩) (ms0_2 ⟨n, hn⟩) (hs0_2 ⟨n, hn⟩) (ms0_3 ⟨n, hn⟩) (hs0_3 ⟨n, hn⟩)
        (fun h => h0 ((hcond0_0 ⟨n, hn⟩).mp h)) (iblk m c 0 ⟨n, hn⟩) (iblk m c 1 ⟨n, hn⟩)
        (outsAt0 m c (n - 1) hn').2) (ix3 (0 : Fin 1) col (0 : Fin 1))
      rw [outsAt0_B m c ⟨n, hn⟩ h0]
      dsimp only
      rw [hp]
      have e1 : 512 * ((n - 1) % 8) + 512 = 512 * (n % 8) := by omega
      have e2 : batchOf ⟨n - 1, hn'⟩ = batchOf ⟨n, hn⟩ := Fin.ext (by show (n - 1) / 8 = n / 8; omega)
      refine fold_tile (srcCloud m c) (tgtCloud m c) (srcBlk m c ⟨n, hn⟩) (tgtBlk m c ⟨n, hn⟩) (batchOf ⟨n, hn⟩)
        (512 * (n % 8)) (by omega) (fun r d => srcBlk_apply m c ⟨n, hn⟩ r d) (fun k d => tgtBlk_apply m c ⟨n, hn⟩ k d)
        (outsAt0 m c (n - 1) hn').2 col (fun y => ?_) x
      rw [ih (n - 1) (by omega) hn' col y, e1, e2]

end Cert.KernelIdeal.Carried

end
-- ==== Proof.Arrays.lean ====
/-
  The two result arrays of the region after the run, as whole-array functions of the two clouds.

  Output 2 is written back at every point: point `t` writes rows `512·(t % 8) … + 511` of batch `t / 8`, the row
  minima of its tile; the 64 blocks tile the [8, 4096, 1] array, so the array ends holding, at `(b, r, 0)`, the
  least squared distance from source point `r` of batch `b` to a target point.
  Output 3 is written back only at the last tile of each batch (`t % 8 = 7`), when the carried minimum has seen
  all 4096 source rows: by the universal property it then IS the minimum over all source points, so the array ends
  holding, at `(b, c, 0)`, the least squared distance to target point `c` of batch `b` from a source point.
-/
import proofs.«180050_j25039659336371_1_alg».proof.Proof.Carried

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Payload Cert.KernelIdeal.Carried
open Cert.Chamfer Cert.MinFold

variable (m : (ℓ : Loc nD τ sig) → Buf (Elt Ideal) ℓ)

/-- For each source point, the least squared distance to a target point of its batch, laid out as [8, 4096, 1]. -/
def srcMin (c : Dev nD) : Buf (Elt Ideal) ((c : Thread nD τ).loc main_v2_0) := fun i =>
  nearestTgt (srcCloud m c) (tgtCloud m c) ⟨(i 0).val, (i 0).isLt⟩ ⟨(i 1).val, (i 1).isLt⟩

/-- For each target point, the least squared distance from a source point of its batch, laid out as [8, 4096, 1]. -/
def tgtMin (c : Dev nD) : Buf (Elt Ideal) ((c : Thread nD τ).loc main_v2_1) := fun i =>
  nearestSrc (srcCloud m c) (tgtCloud m c) ⟨(i 0).val, (i 0).isLt⟩ ⟨(i 1).val, (i 1).isLt⟩

/-! ## Output 2 -/

/-- What point `t` writes back of output 2 is block `t` of `srcMin`. -/
theorem flushed2_eq (c : Dev nD) (t : Fin cfg0.N) :
    (dats m 0 c).flushed 2 t = ((cfg0.win 2).blk t).view.read (Elt Ideal) (srcMin m c) := by
  show (cfg0.win 2).cut (grid0.coords t) ((dats m 0 c).after 2 t) = _
  rw [after0_2, rowMin_at]
  obtain ⟨-, -, -, -, -, -, e0, e1, e2, -⟩ := idx_facts t
  funext j
  obtain ⟨u, r, w, rfl⟩ : ∃ (u : Fin 1) (r : Fin 512) (w : Fin 1), j = ix3 u r w :=
    ⟨j 0, j 1, j 2, eq_ix3 (n0 := 1) (n1 := 512) (n2 := 1) j⟩
  obtain rfl : u = 0 := Subsingleton.elim _ _
  obtain rfl : w = 0 := Subsingleton.elim _ _
  show k0_pay3 (F := Ideal) (srcBlk m c t) (tgtBlk m c t) (ix3 (0 : Fin 1) r (0 : Fin 1))
    = srcMin m c (((cfg0.win 2).blk t).view.emb (ix3 (0 : Fin 1) r (0 : Fin 1)))
  rw [pay3_apply]
  unfold srcMin nearestTgt
  refine minOver_congr fun k => ?_
  rw [tile_pd]
  congr 1 <;> apply Fin.ext
  · show t.val / 8 = win0_2.index t (0 : Fin 3) * 1 + 1 * 0; omega
  · show 512 * (t.val % 8) + r.val = win0_2.index t (1 : Fin 3) * 512 + 1 * r.val; omega

/-- An index of the array is in point `t`'s block of output 2 iff each coordinate is in the block's range. -/
theorem mem_blk2 (t : Fin cfg0.N) (i : S8x4096x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v2_0).slice (win0_2.rect t)).set ↔ _
  rw [View.set_slice_whole, Rect.mem_set_unit]
  exact Iff.rfl

/-- Output 2's array after the run. Row `r` of batch `b` lies in the block of point `8·b + r / 512`. -/
theorem final2 (c : Dev nD) : (dats m 0 c).arrAt 2 cfg0.N = srcMin m c :=
  (dats m 0 c).arrAt_eq_of_cover 2 (srcMin m c) (fun t _ => flushed2_eq m c t) fun (i : S8x4096x1.Idx) => by
    have h0 : (i 0).val < 8 := (i 0).isLt
    have h1 : (i 1).val < 4096 := (i 1).isLt
    have h2 : (i 2).val < 1 := (i 2).isLt
    have hlt : 8 * (i 0).val + (i 1).val / 512 < cfg0.N := by rw [N_eq]; omega
    refine ⟨⟨8 * (i 0).val + (i 1).val / 512, hlt⟩, flush0_2 _, ?_⟩
    rw [mem_blk2]
    obtain ⟨-, -, -, -, -, -, e0, e1, e2, -⟩ := idx_facts ⟨8 * (i 0).val + (i 1).val / 512, hlt⟩
    simp only at e0 e1 e2
    intro a
    match a with
    | ⟨0, _⟩ =>
      show win0_2.index ⟨8 * (i 0).val + (i 1).val / 512, hlt⟩ (0 : Fin 3) * 1 ≤ (i 0).val
        ∧ (i 0).val < win0_2.index ⟨8 * (i 0).val + (i 1).val / 512, hlt⟩ (0 : Fin 3) * 1 + 1
      omega
    | ⟨1, _⟩ =>
      show win0_2.index ⟨8 * (i 0).val + (i 1).val / 512, hlt⟩ (1 : Fin 3) * 512 ≤ (i 1).val
        ∧ (i 1).val < win0_2.index ⟨8 * (i 0).val + (i 1).val / 512, hlt⟩ (1 : Fin 3) * 512 + 512
      omega
    | ⟨2, _⟩ =>
      show win0_2.index ⟨8 * (i 0).val + (i 1).val / 512, hlt⟩ (2 : Fin 3) * 1 ≤ (i 2).val
        ∧ (i 2).val < win0_2.index ⟨8 * (i 0).val + (i 1).val / 512, hlt⟩ (2 : Fin 3) * 1 + 1
      omega

/-! ## Output 3 -/

/-- What a flushing point (the last tile of a batch) writes back of output 3 is block `t` of `tgtMin`: the
    carried minimum has seen every source row, so it is the minimum over all of them. -/
theorem flushed3_eq (c : Dev nD) (t : Fin cfg0.N) (hf : (cfg0.win 3).flush t = true) :
    (dats m 0 c).flushed 3 t = ((cfg0.win 3).blk t).view.read (Elt Ideal) (tgtMin m c) := by
  have h7 : t.val % 8 = 7 := (flush0_3 t).mp hf
  show (cfg0.win 3).cut (grid0.coords t) ((dats m 0 c).after 3 t) = _
  rw [after0_3]
  obtain ⟨-, -, -, -, -, -, -, -, -, e0, e1, e2⟩ := idx_facts t
  funext j
  obtain ⟨u, k, w, rfl⟩ : ∃ (u : Fin 1) (k : Fin 4096) (w : Fin 1), j = ix3 u k w :=
    ⟨j 0, j 1, j 2, eq_ix3 (n0 := 1) (n1 := 4096) (n2 := 1) j⟩
  obtain rfl : u = 0 := Subsingleton.elim _ _
  obtain rfl : w = 0 := Subsingleton.elim _ _
  show (outsAt0 m c t.val t.isLt).2 (ix3 (0 : Fin 1) k (0 : Fin 1))
    = tgtMin m c (((cfg0.win 3).blk t).view.emb (ix3 (0 : Fin 1) k (0 : Fin 1)))
  have hacc : ∀ x : EReal, x ≤ (outsAt0 m c t.val t.isLt).2 (ix3 (0 : Fin 1) k (0 : Fin 1))
      ↔ ∀ r : Fin 4096, r.val < 4096 → x ≤ pd (srcCloud m c) (tgtCloud m c) (batchOf t) r k := fun x => by
    have := colMin_at m c t.val t.isLt k x
    rw [h7] at this
    exact this
  rw [running_end (fun r => pd (srcCloud m c) (tgtCloud m c) (batchOf t) r k) _ hacc]
  unfold tgtMin nearestSrc
  refine minOver_congr fun r => ?_
  congr 1 <;> apply Fin.ext
  · show t.val / 8 = win0_3.index t (0 : Fin 3) * 1 + 1 * 0; omega
  · show k.val = win0_3.index t (1 : Fin 3) * 4096 + 1 * k.val; omega

theorem mem_blk3 (t : Fin cfg0.N) (i : S8x4096x1.Idx) :
    i ∈ ((cfg0.win 3).blk t).view.set ↔ ∀ a : Fin 3, win0_3.index t a * S1x4096x1.size a ≤ (i a).val
      ∧ (i a).val < win0_3.index t a * S1x4096x1.size a + S1x4096x1.size a := by
  show i ∈ ((View.whole main_v2_1).slice (win0_3.rect t)).set ↔ _
  rw [View.set_slice_whole, Rect.mem_set_unit]
  exact Iff.rfl

/-- Output 3's array after the run. Batch `b` is the block of its last point, `8·b + 7`. -/
theorem final3 (c : Dev nD) : (dats m 0 c).arrAt 3 cfg0.N = tgtMin m c :=
  (dats m 0 c).arrAt_eq_of_cover 3 (tgtMin m c) (fun t hf => flushed3_eq m c t hf) fun (i : S8x4096x1.Idx) => by
    have h0 : (i 0).val < 8 := (i 0).isLt
    have h1 : (i 1).val < 4096 := (i 1).isLt
    have h2 : (i 2).val < 1 := (i 2).isLt
    have hlt : 8 * (i 0).val + 7 < cfg0.N := by rw [N_eq]; omega
    refine ⟨⟨8 * (i 0).val + 7, hlt⟩, (flush0_3 _).mpr (by show (8 * (i 0).val + 7) % 8 = 7; omega), ?_⟩
    rw [mem_blk3]
    obtain ⟨-, -, -, -, -, -, -, -, -, e0, e1, e2⟩ := idx_facts ⟨8 * (i 0).val + 7, hlt⟩
    simp only at e0 e1 e2
    intro a
    match a with
    | ⟨0, _⟩ =>
      show win0_3.index ⟨8 * (i 0).val + 7, hlt⟩ (0 : Fin 3) * 1 ≤ (i 0).val
        ∧ (i 0).val < win0_3.index ⟨8 * (i 0).val + 7, hlt⟩ (0 : Fin 3) * 1 + 1
      omega
    | ⟨1, _⟩ =>
      show win0_3.index ⟨8 * (i 0).val + 7, hlt⟩ (1 : Fin 3) * 4096 ≤ (i 1).val
        ∧ (i 1).val < win0_3.index ⟨8 * (i 0).val + 7, hlt⟩ (1 : Fin 3) * 4096 + 4096
      omega
    | ⟨2, _⟩ =>
      show win0_3.index ⟨8 * (i 0).val + 7, hlt⟩ (2 : Fin 3) * 1 ≤ (i 2).val
        ∧ (i 2).val < win0_3.index ⟨8 * (i 0).val + 7, hlt⟩ (2 : Fin 3) * 1 + 1
      omega

end Cert.KernelIdeal.Arrays

end
-- ==== Proof.Tail.lean ====
/-
  The loss both programs compute from the two chamfer minima, as ONE function.

  With `dt` the minimum for each target point and `ds` the minimum for each source point (each an [8, 4096]
  array), both programs stack them on a last axis of two, apply the Geman–McClure penalty `1·x / (x + 1)`
  entry by entry, sum over the pair, average over the 4096 points (a sum divided by 4096) and then over the 8
  batches (a sum divided by 8). The kernel's program and the reference print the same sixteen host operations
  for this; the certificate names their composition here once and never opens it: it proves the two minima
  going in equal.
-/
import proofs.«180050_j25039659336371_1_alg».proof.KernelIdeal

noncomputable section

namespace Cert.Chamfer

open Idealize.ShloMosaic Cert.KernelIdeal Cert.KernelIdeal.Facts₀

variable {F : FTy → Type} [FloatOps F] [Cert.KernelIdeal.Facts]

/-- The two minima stacked on a last axis: entry `(b, n, 0)` is `dt (b, n)`, entry `(b, n, 1)` is `ds (b, n)`. -/
def stacked (dt ds : FVec F S8x4096 .f32) : FVec F S8x4096x2 .f32 :=
  concatenate S8x4096x2 2
    [⟨S8x4096x1, broadcastInDim S8x4096x1 ![0, 1] bcast_S8x4096_S8x4096x1_0_1 dt⟩,
     ⟨S8x4096x1, broadcastInDim S8x4096x1 ![0, 1] bcast_S8x4096_S8x4096x1_0_1 ds⟩]
    concatenates_S8x4096x1_S8x4096x1_S8x4096x2_d2

/-- The penalty `1·x / (x + 1)` of every stacked entry, summed over the pair, averaged over the points of a
    batch and then over the batches. -/
def loss (dt ds : FVec F S8x4096 .f32) : FVec F S_ .f32 :=
  Host.divf
    (Host.reduceAdd
      (Host.divf
        (Host.reduceAdd
          (Host.reduceAdd
            (Host.divf
              (mulf (broadcastInDim S8x4096x2 ![] bcast_S_S8x4096x2 (constant S_ .f32 0x3F800000#32)) (stacked dt ds))
              (addf (stacked dt ds) (broadcastInDim S8x4096x2 ![] bcast_S_S8x4096x2 (constant S_ .f32 0x3F800000#32))))
            (constant S_ .f32 0x00000000#32) reducesTo_S8x4096x2_S8x4096_d2 h_S_)
          (constant S_ .f32 0x00000000#32) reducesTo_S8x4096_S8_d1 h_S_)
        (broadcastInDim S8 ![] bcast_S_S8 (constant S_ .f32 0x45800000#32)))
      (constant S_ .f32 0x00000000#32) reducesTo_S8_S_d0 h_S_)
    (constant S_ .f32 0x41000000#32)

end Cert.Chamfer

end
-- ==== Proof.KernelRun.lean ====
/-
  The kernel program's run, read: its result is the shared loss of the two chamfer minima.

  After the region the program reshapes the two result arrays to [8, 4096] and applies the sixteen host
  operations of the loss. Read back over the arrays the region leaves — output 3's array the minimum for each
  target point, output 2's the minimum for each source point — the result buffer holds `loss` of the two.
-/
import proofs.«180050_j25039659336371_1_alg».proof.Proof.Arrays
import proofs.«180050_j25039659336371_1_alg».proof.Proof.Tail
import Idealize.ShloMosaic.Lib.StableHlo.Run

noncomputable section

namespace Cert.KernelIdeal.RunValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Arrays Cert.Chamfer

variable (m : (ℓ : Loc nD τ sig) → Buf (Elt Ideal) ℓ) (ρ : Dev nD → PrngReg)

/-- The two minima as [8, 4096] arrays: the result arrays with their unit axis dropped. -/
abbrev tgtMin2 (c : Dev nD) : FVec Ideal S8x4096 .f32 := shapeCast S8x4096 (tgtMin m c) Facts₀.shapeCasts_S8x4096x1_S8x4096
abbrev srcMin2 (c : Dev nD) : FVec Ideal S8x4096 .f32 := shapeCast S8x4096 (srcMin m c) Facts₀.shapeCasts_S8x4096x1_S8x4096

/-- The host operations after the region, applied to the arrays the region leaves, compute the loss of the two
    minima. -/
theorem tail_eq (c : Dev nD) :
    Pipeline.afterTail₀ cfgs (dats m) 0 (V0 m) [hostOps1] c main_v18 = loss (F := Ideal) (tgtMin2 m c) (srcMin2 m c) := by
  unfold Pipeline.afterTail₀
  show StableHlo.after hostOps1 _ (Proc.devRef .tc main_v18) = _
  after_results
  have e3 : Pipeline.withArrays (cfgs 0).spec c (V0 m c) (fun w => (dats m 0 c).arrAt w (cfgs 0).N)
      (Proc.devRef .tc main_v2_1) = tgtMin m c :=
    (Pipeline.withArrays_arr spec0 launch0.win.arr_inj c _ _ 3).trans (final3 m c)
  have e2 : Pipeline.withArrays (cfgs 0).spec c (V0 m c) (fun w => (dats m 0 c).arrAt w (cfgs 0).N)
      (Proc.devRef .tc main_v2_0) = srcMin m c :=
    (Pipeline.withArrays_arr spec0 launch0.win.arr_inj c _ _ 2).trans (final2 m c)
  rw [e3, e2]
  rfl

/-- Every weakly fair execution of the kernel program terminates with its result at the loss of the two minima and
    its arguments unchanged. -/
theorem run : θ_run defs (onTc (τ := τ) (main (F := Ideal))) ⟨m, fun _ => 0, ρ⟩ fun r => ∀ c : Dev nD,
      r.2.mem ((c.tc : Thread nD τ).loc main_v18) = loss (F := Ideal) (tgtMin2 m c) (srcMin2 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v18 (Pipeline.mem_restRefs_of main_v18 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.RunValue

end
-- ==== Proof.RefStages.lean ====
/-
  The reference program's stages read at an index, over the extended reals, and its result as the shared loss
  of the two minima.

  With `s`, `t` the two clouds after the transposition that puts the three coordinates last, the reference
  forms for every batch `b`, source point `r` and target point `c`
      P (b, r, c) = (Σ_d s(b,r,d)² + Σ_d t(b,c,d)²) − 2 · Σ_d s(b,r,d) · t(b,c,d),
  each sum over the three coordinates starting from the word of zero, the two squared norms spread over the
  missing axis before they are added. That is the specification's squared distance `pd s t b r c`
  (`pd_apply`). Its two reductions by `min` from the word of `+∞`, over the source axis and over the target
  axis, are then the specification's two minima (`dtgt_apply`, `dsrc_apply`): a minimum over one axis read at
  an index is the minimum over that axis's coordinates of `P` with the coordinate inserted, and the inserted
  index is `(b, k, c)`, respectively `(b, r, k)`. What the reference does with the two minima afterwards is,
  operation by operation, the loss the specification names once (`result_eq_loss`): the same sixteen
  operations over the same literal shapes, so the two terms are one.
-/
import proofs.«180050_j25039659336371_1_alg».proof.Proof.RefRead
import proofs.«180050_j25039659336371_1_alg».proof.Proof.Spec
import proofs.«180050_j25039659336371_1_alg».proof.Proof.Tail
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Chamfer Cert.MinFold

/-! ## Where each stage reads its operand

The squared norm of the source point is read through two spreadings (over the target axis, then over a unit axis)
and the sum's inserted coordinate: from `(b, r, c)` that lands on `(b, r, k)`. The target's lands on `(b, c, k)`.
The inner product reads its left operand at `(b, r, k)` and its right at `(b, c, k)`. -/

/-- The source point's squared norm, followed back from `(b, r, c)`, reads coordinate `k` at `(b, r, k)`. -/
theorem idx_sq_src (b : Fin 8) (r c : Fin 4096) (k : Fin 3) :
    idx_main_v3 (idx_main_v7 (idx_main_v9 (ix3 b r c))) k = ix3 b r k :=
  funext fun a => Fin.ext (by match a with | ⟨0, _⟩ => rfl | ⟨1, _⟩ => rfl | ⟨2, _⟩ => rfl)

/-- The target point's squared norm, followed back from `(b, r, c)`, reads coordinate `k` at `(b, c, k)`. -/
theorem idx_sq_tgt (b : Fin 8) (r c : Fin 4096) (k : Fin 3) :
    idx_main_v5 (idx_main_v8 (idx_main_v10 (ix3 b r c))) k = ix3 b c k :=
  funext fun a => Fin.ext (by match a with | ⟨0, _⟩ => rfl | ⟨1, _⟩ => rfl | ⟨2, _⟩ => rfl)

/-- The inner product at `(b, r, c)` reads the source cloud at `(b, r, k)`. -/
theorem idx_dot_src (b : Fin 8) (r c : Fin 4096) (k : Fin 3) :
    lidx_main_v6 (ix3 b r c) k = ix3 b r k :=
  funext fun a => Fin.ext (by match a with | ⟨0, _⟩ => rfl | ⟨1, _⟩ => rfl | ⟨2, _⟩ => rfl)

/-- The inner product at `(b, r, c)` reads the target cloud at `(b, c, k)`. -/
theorem idx_dot_tgt (b : Fin 8) (r c : Fin 4096) (k : Fin 3) :
    ridx_main_v6 (ix3 b r c) k = ix3 b c k :=
  funext fun a => Fin.ext (by match a with | ⟨0, _⟩ => rfl | ⟨1, _⟩ => rfl | ⟨2, _⟩ => rfl)

/-! ## The squared distance -/

/-- The stage the two minima are taken of is the squared distance: at `(b, r, c)` it is
    `(|s_r|² + |t_c|²) − 2 · ⟨s_r, t_c⟩`. Each sum starts from the word of zero, which is `0` and drops out; the
    word of `2` is kept as the word on both sides. -/
theorem pd_apply (x0 x1 : (⟨S8x3x4096, .f32⟩ : BufTy).Contents (Elt Ideal)) (b : Fin 8) (r c : Fin 4096) :
    val_main_v14 (F := Ideal) x0 x1 (ix3 b r c)
      = pd (val_main_v0 (F := Ideal) x0) (val_main_v1 (F := Ideal) x1) b r c := by
  rw [val_main_v14_apply, val_main_v11_apply, val_main_v9_apply, val_main_v7_apply, val_main_v3_apply,
    val_main_v10_apply, val_main_v8_apply, val_main_v5_apply, val_main_v13_apply, val_main_v12_apply,
    val_main_v6_apply, val_main_cst_apply, val_main_cst_0_apply, val_main_cst_1_apply]
  simp only [val_main_v2_apply, val_main_v4_apply, idx_sq_src, idx_sq_tgt, idx_dot_src, idx_dot_tgt,
    Ideal.subf_def, Ideal.addf_def, Ideal.mulf_def, Ideal.ofBits_def, Ideal.ofBits_zero_f32, zero_add]
  rfl

/-! ## The two minima -/

/-- Taking away the target axis, respectively the source axis, of a [8, 4096, 4096] array leaves [8, 4096]. -/
theorem red_tgt : S8x4096x4096.Reduces [2] S8x4096 := by decide
theorem red_src : S8x4096x4096.Reduces [1] S8x4096 := by decide

/-- Inserting `k` on the target axis of `(b, r)` gives `(b, r, k)`. -/
theorem lift_tgt (b : Fin 8) (r : Fin 4096) (k : Fin 4096) : red_tgt.lift (ix2 b r) k = ix3 b r k :=
  funext fun a => Fin.ext (by match a with | ⟨0, _⟩ => rfl | ⟨1, _⟩ => rfl | ⟨2, _⟩ => rfl)

/-- Inserting `k` on the source axis of `(b, c)` gives `(b, k, c)`. -/
theorem lift_src (b : Fin 8) (c : Fin 4096) (k : Fin 4096) : red_src.lift (ix2 b c) k = ix3 b k c :=
  funext fun a => Fin.ext (by match a with | ⟨0, _⟩ => rfl | ⟨1, _⟩ => rfl | ⟨2, _⟩ => rfl)

/-- For source point `r`: the minimum over the target axis is the least squared distance to a target point. -/
theorem dsrc_apply (x0 x1 : (⟨S8x3x4096, .f32⟩ : BufTy).Contents (Elt Ideal)) (b : Fin 8) (r : Fin 4096) :
    val_main_v16 (F := Ideal) x0 x1 (ix2 b r)
      = nearestTgt (val_main_v0 (F := Ideal) x0) (val_main_v1 (F := Ideal) x1) b r := by
  unfold val_main_v16 val_main_cst_3 nearestTgt
  refine (hostReduce_minimumf_single _ _ red_tgt _ (ix2 b r)).trans ?_
  exact minOver_congr (n := 4096) fun k =>
    (congrArg (val_main_v14 (F := Ideal) x0 x1) (lift_tgt b r k)).trans (pd_apply x0 x1 b r k)

/-- For target point `c`: the minimum over the source axis is the least squared distance from a source point. -/
theorem dtgt_apply (x0 x1 : (⟨S8x3x4096, .f32⟩ : BufTy).Contents (Elt Ideal)) (b : Fin 8) (c : Fin 4096) :
    val_main_v15 (F := Ideal) x0 x1 (ix2 b c)
      = nearestSrc (val_main_v0 (F := Ideal) x0) (val_main_v1 (F := Ideal) x1) b c := by
  unfold val_main_v15 val_main_cst_2 nearestSrc
  refine (hostReduce_minimumf_single _ _ red_src _ (ix2 b c)).trans ?_
  exact minOver_congr (n := 4096) fun k =>
    (congrArg (val_main_v14 (F := Ideal) x0 x1) (lift_src b c k)).trans (pd_apply x0 x1 b k c)

/-! ## The result -/

/-- The reference's result is the loss of its two minima. After the two minima the reference stacks them on a last
    axis of two, applies `1·x / (x + 1)` entry by entry, sums over the pair, and averages over the points and then
    over the batches: operation for operation the function `loss`, over shapes that are the same literals and side
    conditions that are the same propositions. The two minima themselves are never opened. -/
theorem result_eq_loss [Cert.KernelIdeal.Facts] (x0 x1 : (⟨S8x3x4096, .f32⟩ : BufTy).Contents (Elt Ideal)) :
    val_main_v30 (F := Ideal) x0 x1
      = Cert.Chamfer.loss (F := Ideal) (val_main_v15 (F := Ideal) x0 x1) (val_main_v16 (F := Ideal) x0 x1) := by
  unfold val_main_v30 val_main_v29 val_main_v28 val_main_v27 val_main_v26 val_main_v25 val_main_v24 val_main_v23
    val_main_v22 val_main_v21 val_main_v20 val_main_v19 val_main_v18 val_main_v17
    val_main_cst_4 val_main_cst_5 val_main_cst_6 val_main_cst_7 val_main_cst_8 val_main_cst_9 val_main_cst_10
    Cert.Chamfer.loss Cert.Chamfer.stacked
  generalize val_main_v15 (F := Ideal) x0 x1 = dt
  generalize val_main_v16 (F := Ideal) x0 x1 = ds
  rfl

end Cert.ReferenceIdeal.RefValue

end
-- ==== Proof.Bridge.lean ====
/-
  The two sides meet: the minima the kernel's arrays hold are the reference's two minimum stages.

  The clouds the kernel's region finds are the transposes of the arguments, which are the reference's first two
  stages of the same arguments. The kernel's result arrays, with their unit axis dropped, then hold at `(b, k)`
  the same minima of the same squared distances as the reference's two `minimum` reductions: for target point
  `k` over all source points (the carried minimum, equal to the whole-axis minimum by the universal property),
  and for source point `k` over all target points.
-/
import proofs.«180050_j25039659336371_1_alg».proof.Proof.KernelRun
import proofs.«180050_j25039659336371_1_alg».proof.Proof.RefStages
import Idealize.ShloMosaic.Lib.Pipeline.Value

noncomputable section

namespace Cert.Proof.Bridge

open Idealize.ShloMosaic Idealize.ShloMosaic.TcCoe Idealize.SL.Sem Idealize.ShloMosaic.ValueIdx
open Cert.Chamfer Cert.KernelIdeal.Carried Cert.KernelIdeal.Arrays Cert.KernelIdeal.RunValue
open Cert.ReferenceIdeal.Read Cert.ReferenceIdeal.RefValue

variable (m : (ℓ : Loc Cert.KernelIdeal.nD Cert.KernelIdeal.τ Cert.KernelIdeal.sig) → Buf (Elt Ideal) ℓ)

/-- The source cloud the region finds is the reference's transposed first argument. -/
theorem srcCloud_eq (c : Dev Cert.KernelIdeal.nD) :
    srcCloud m c = val_main_v0 (F := Ideal)
      (m ((c.tc : Thread Cert.KernelIdeal.nD Cert.KernelIdeal.τ).loc Cert.KernelIdeal.main_arg0)) := by
  show Cert.KernelIdeal.Blocks.srcArr m c = _
  rw [Cert.KernelIdeal.Blocks.srcArr_eq]
  rfl

/-- The target cloud the region finds is the reference's transposed second argument. -/
theorem tgtCloud_eq (c : Dev Cert.KernelIdeal.nD) :
    tgtCloud m c = val_main_v1 (F := Ideal)
      (m ((c.tc : Thread Cert.KernelIdeal.nD Cert.KernelIdeal.τ).loc Cert.KernelIdeal.main_arg1)) := by
  show Cert.KernelIdeal.Blocks.tgtArr m c = _
  rw [Cert.KernelIdeal.Blocks.tgtArr_eq]
  rfl

/-- An [8, 4096, 1] array with its unit axis dropped reads, at `(b, k)`, the array at `(b, k, 0)`. -/
theorem dropUnit_apply (x : Cert.KernelIdeal.S8x4096x1.Idx → EReal)
    (h : Cert.KernelIdeal.S8x4096x1.ShapeCasts Cert.KernelIdeal.S8x4096) (b : Fin 8) (k : Fin 4096) :
    shapeCast Cert.KernelIdeal.S8x4096 x h (ix2 b k) = x (ix3 b k (0 : Fin 1)) :=
  shapeCast_apply x h _ _ (by
    rw [Shape.rowMajor_val_three, Shape.rowMajor_val_two]
    show (b.val * 4096 + k.val) * 1 + 0 = b.val * 4096 + k.val
    omega)

/-- The kernel's minimum for each target point is the reference's reduction over the source axis. -/
theorem tgtMin2_eq (c : Dev Cert.KernelIdeal.nD) :
    tgtMin2 m c = val_main_v15 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  funext j
  obtain ⟨b, k, rfl⟩ : ∃ (b : Fin 8) (k : Fin 4096), j = ix2 b k := ⟨j 0, j 1, eq_ix2 (n0 := 8) (n1 := 4096) j⟩
  rw [dtgt_apply, ← srcCloud_eq, ← tgtCloud_eq]
  exact dropUnit_apply (tgtMin m c) _ b k

/-- The kernel's minimum for each source point is the reference's reduction over the target axis. -/
theorem srcMin2_eq (c : Dev Cert.KernelIdeal.nD) :
    srcMin2 m c = val_main_v16 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  funext j
  obtain ⟨b, k, rfl⟩ : ∃ (b : Fin 8) (k : Fin 4096), j = ix2 b k := ⟨j 0, j 1, eq_ix2 (n0 := 8) (n1 := 4096) j⟩
  rw [dsrc_apply, ← srcCloud_eq, ← tgtCloud_eq]
  exact dropUnit_apply (srcMin m c) _ b k

end Cert.Proof.Bridge

end
-- ==== Proof.lean ====
/-
  The certificate of the chamfer loss kernel against its jnp reference, over the extended reals.

  Both programs take two batches of 8 point clouds (4096 points of 3 coordinates, stored coordinate-major),
  transpose them, and form for every source point `r` and target point `c` of a batch the squared distance
      P = (|s_r|² + |t_c|²) − 2·⟨s_r, t_c⟩,
  then the two chamfer minima — for each target point over the source points, for each source point over the
  target points — and from these a robust loss (the penalty x / (x + 1) of every minimum, summed and averaged).

  The reference takes each minimum in one reduction over the full [8, 4096, 4096] array. The kernel never forms
  that array: a grid point forms a [512, 4096] tile of it for one batch, stores the tile's minima over the target
  points (512 rows of the first result), and folds the tile's minima over its 512 source points into a running
  minimum carried across the eight tiles of the batch, reset to +∞ at the batch's first tile and written back
  after its last.

  Why the two agree at the ideal values. The tile's entries are the same sums of the same products as the
  reference's (a lane sum and a matrix product into zero against a host sum and a dot product: plain sums over the
  three coordinates). A minimum on the extended reals is the infimum of a linear order, known by its universal
  property: the running minimum after tile `n` is the infimum over the source rows below 512·(n + 1) (induction
  over the grid points), so after the eighth tile it is the infimum over all 4096 rows, which is the reference's
  whole-axis minimum. No finiteness of the inputs is used: only `min`, and sums and products written alike on
  both sides. The loss is the same sixteen host operations in both programs and is carried as one function of
  the two minima.

  The frames of the two kernel programs are the generated ones; the reference's frame is its run with the result
  dropped; the idealization rewrote nothing, so `preserves` is `True`.
-/
import proofs.«180050_j25039659336371_1_alg».proof.Defs
import proofs.«180050_j25039659336371_1_alg».proof.Proof.Gen.Kernel
import proofs.«180050_j25039659336371_1_alg».proof.Proof.Gen.Kernel.Skeleton
import proofs.«180050_j25039659336371_1_alg».proof.Proof.Gen.Kernel.Launch
import proofs.«180050_j25039659336371_1_alg».proof.Proof.Gen.Kernel.Points
import proofs.«180050_j25039659336371_1_alg».proof.Proof.Gen.Kernel.Frame
import proofs.«180050_j25039659336371_1_alg».proof.Proof.Gen.KernelIdeal
import proofs.«180050_j25039659336371_1_alg».proof.Proof.Gen.KernelIdeal.Skeleton
import proofs.«180050_j25039659336371_1_alg».proof.Proof.Gen.KernelIdeal.Launch
import proofs.«180050_j25039659336371_1_alg».proof.Proof.Gen.KernelIdeal.Points
import proofs.«180050_j25039659336371_1_alg».proof.Proof.Gen.KernelIdeal.Frame
import proofs.«180050_j25039659336371_1_alg».proof.Proof.Gen.ReferenceIdeal
import proofs.«180050_j25039659336371_1_alg».proof.Proof.Gen.Pre_finite_inputs
import proofs.«180050_j25039659336371_1_alg».proof.Proof.RefRun
import proofs.«180050_j25039659336371_1_alg».proof.Proof.RefRead
import proofs.«180050_j25039659336371_1_alg».proof.Proof.KernelRun
import proofs.«180050_j25039659336371_1_alg».proof.Proof.RefStages
import proofs.«180050_j25039659336371_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end with the loss of the same two minima: the kernel's result is `loss` of
    the minima its arrays hold, the reference's is `loss` of its two reductions, and these are the same arrays of
    arguments that agree. -/
theorem algebraic : Cert.algebraic_KernelIdeal_ReferenceIdeal := by
  intro m ρ m' ρ' _ hagree
  refine ⟨fun c => Cert.Chamfer.loss (F := Ideal) (Cert.KernelIdeal.RunValue.tgtMin2 m c) (Cert.KernelIdeal.RunValue.srcMin2 m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq_loss, (hagree c).1, (hagree c).2,
    ← Cert.Proof.Bridge.tgtMin2_eq, ← Cert.Proof.Bridge.srcMin2_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
